-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x64 : Shape := ⟨2, ![262144, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S262144x64 : S_.BroadcastsInDim S262144x64 (![] : Fin 0 → Fin S262144x64.rank)
  reducesTo_S262144x64_S_d0_1 : S262144x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg4 : FVec F S32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S262144x64 .f32) (main_arg1 : FVec F S64x128 .f32) (main_arg2 : FVec F S128 .f32) (main_arg3 : FVec F S128x32 .f32) (main_arg4 : FVec F S32 .f32) : IVec S_ 1 :=
  let main_v0 : FVec F S262144x64 .f32 := Host.absf main_arg0
  let main_cst : FVec F S_ .f32 := constant S_ .f32 0x7F800000#32
  let main_v1 : FVec F S262144x64 .f32 := broadcastInDim S262144x64 ![] bcast_S_S262144x64 main_cst
  let main_v2 : IVec S262144x64 1 := cmpf .olt main_v0 main_v1
  let main_c : IVec S_ 1 := constantI S_ 1 1#1
  let main_v3 : IVec S_ 1 := (fun x v => Host.reduce IntOp.andi x v reducesTo_S262144x64_S_d0_1 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg3
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg4 main_v13 main_v16
-- ==== Kernel.lean ====
abbrev S262144x64 : Shape := ⟨2, ![262144, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S_ : Shape := ⟨0, ![]⟩
abbrev S64x256 : Shape := ⟨2, ![64, 256]⟩
abbrev S128x256 : Shape := ⟨2, ![128, 256]⟩
abbrev S128x64 : Shape := ⟨2, ![128, 64]⟩
abbrev S256x64 : Shape := ⟨2, ![256, 64]⟩
abbrev S256 : Shape := ⟨1, ![256]⟩
abbrev S1x256 : Shape := ⟨2, ![1, 256]⟩
abbrev S64 : Shape := ⟨1, ![64]⟩
abbrev S1x64 : Shape := ⟨2, ![1, 64]⟩
abbrev S131072x128 : Shape := ⟨2, ![131072, 128]⟩
abbrev S131072x64 : Shape := ⟨2, ![131072, 64]⟩
abbrev S4096x128 : Shape := ⟨2, ![4096, 128]⟩
abbrev S4096x64 : Shape := ⟨2, ![4096, 64]⟩
abbrev S4096x256 : Shape := ⟨2, ![4096, 256]⟩
abbrev S262144x32 : Shape := ⟨2, ![262144, 32]⟩

abbrev nBuf : Space → Nat
  | .hbm => 24
  | .vmem => 8
  | .smem => 0
  | _ => 0

abbrev bufTy : (tb : Table) → Fin (tcTables nBuf tb) → BufTy
  | .hbm, ⟨0, _⟩ => ⟨S262144x64, .f32⟩
  | .hbm, ⟨1, _⟩ => ⟨S64x128, .f32⟩
  | .hbm, ⟨2, _⟩ => ⟨S128, .f32⟩
  | .hbm, ⟨3, _⟩ => ⟨S128x32, .f32⟩
  | .hbm, ⟨4, _⟩ => ⟨S32, .f32⟩
  | .hbm, ⟨5, _⟩ => ⟨S_, .f32⟩
  | .hbm, ⟨6, _⟩ => ⟨S64x128, .f32⟩
  | .hbm, ⟨7, _⟩ => ⟨S64x256, .f32⟩
  | .hbm, ⟨8, _⟩ => ⟨S64x256, .f32⟩
  | .hbm, ⟨9, _⟩ => ⟨S128x256, .f32⟩
  | .hbm, ⟨10, _⟩ => ⟨S128x256, .bf16⟩
  | .hbm, ⟨11, _⟩ => ⟨S_, .f32⟩
  | .hbm, ⟨12, _⟩ => ⟨S128x32, .f32⟩
  | .hbm, ⟨13, _⟩ => ⟨S128x64, .f32⟩
  | .hbm, ⟨14, _⟩ => ⟨S128x64, .f32⟩
  | .hbm, ⟨15, _⟩ => ⟨S256x64, .f32⟩
  | .hbm, ⟨16, _⟩ => ⟨S256x64, .bf16⟩
  | .hbm, ⟨17, _⟩ => ⟨S256, .f32⟩
  | .hbm, ⟨18, _⟩ => ⟨S1x256, .f32⟩
  | .hbm, ⟨19, _⟩ => ⟨S64, .f32⟩
  | .hbm, ⟨20, _⟩ => ⟨S1x64, .f32⟩
  | .hbm, ⟨21, _⟩ => ⟨S131072x128, .f32⟩
  | .hbm, ⟨22, _⟩ => ⟨S131072x64, .f32⟩
  | .hbm, ⟨23, _⟩ => ⟨S262144x32, .f32⟩
  | .local _ .vmem, ⟨0, _⟩ => ⟨S4096x128, .f32⟩
  | .local _ .vmem, ⟨1, _⟩ => ⟨S4096x128, .f32⟩
  | .local _ .vmem, ⟨2, _⟩ => ⟨S128x256, .bf16⟩
  | .local _ .vmem, ⟨3, _⟩ => ⟨S1x256, .f32⟩
  | .local _ .vmem, ⟨4, _⟩ => ⟨S256x64, .bf16⟩
  | .local _ .vmem, ⟨5, _⟩ => ⟨S1x64, .f32⟩
  | .local _ .vmem, ⟨6, _⟩ => ⟨S4096x64, .f32⟩
  | .local _ .vmem, ⟨7, _⟩ => ⟨S4096x64, .f32⟩
  | _, _ => ⟨S262144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64x128 : S_.BroadcastsInDim S64x128 (![] : Fin 0 → Fin S64x128.rank)
  concatenates_S64x128_S64x128_S64x256_d1 : Shape.Concatenates [S64x128, S64x128] S64x256 1
  concatenates_S64x256_S64x256_S128x256_d0 : Shape.Concatenates [S64x256, S64x256] S128x256 0
  bitsLt_bf16_f32 : FTy.bits .bf16 < FTy.bits .f32
  bcast_S_S128x32 : S_.BroadcastsInDim S128x32 (![] : Fin 0 → Fin S128x32.rank)
  concatenates_S128x32_S128x32_S128x64_d1 : Shape.Concatenates [S128x32, S128x32] S128x64 1
  concatenates_S128x64_S128x64_S256x64_d0 : Shape.Concatenates [S128x64, S128x64] S256x64 0
  concatenates_S128_S128_S256_d0 : Shape.Concatenates [S128, S128] S256 0
  shapeCasts_S256_S1x256 : S256.ShapeCasts S1x256
  concatenates_S32_S32_S64_d0 : Shape.Concatenates [S32, S32] S64 0
  shapeCasts_S64_S1x64 : S64.ShapeCasts S1x64
  shapeCasts_S262144x64_S131072x128 : S262144x64.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  shapeCasts_S131072x64_S262144x32 : S131072x64.ShapeCasts S262144x32
  dot_S4096x128_S128x256_S4096x256_1_0_0_1_n_n_wf : DotDims.WF S4096x128 S128x256 S4096x256 [1] [0] [0] [1] [] []
  dot_S4096x256_S256x64_S4096x64_1_0_0_1_n_n_wf : DotDims.WF S4096x256 S256x64 S4096x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S131072x128.size a
  hwx0_0 : ∀ i : grid0.Coords, EltTy.bits .f32 = 32 ∨ (Rect.block (s := S131072x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .bf16 = 32 ∨ (Rect.block (s := S128x256) S128x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x64.size a ≤ S256x64.size a
  hwx0_3 : ∀ i : grid0.Coords, EltTy.bits .bf16 = 32 ∨ (Rect.block (s := S256x64) S256x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x64.size a ≤ S131072x64.size a
  hwx0_5 : ∀ i : grid0.Coords, EltTy.bits .f32 = 32 ∨ (Rect.block (s := S131072x64) S4096x64.size (cc0_transform_5 i) (hinb0_5 i)).WholeWords (EltTy.packing .f32)

variable [Facts₀]

def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x64_S4096x64_1_0_0_1_n_n : DotDims S4096x256 S256x64 S4096x64 where
  lhsContracting := [1]
  rhsContracting := [0]
  lhsNonContracting := [0]
  rhsNonContracting := [1]
  lhsBatch := []
  rhsBatch := []
  wf := dot_S4096x256_S256x64_S4096x64_1_0_0_1_n_n_wf

abbrev win0_0 : Pipeline.Window sig grid0 :=
  Pipeline.Window.ofSpec (Memref.whole main_v14) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S256x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S4096x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S262144x64 : Shape := ⟨2, ![262144, 64]⟩
abbrev S64x128 : Shape := ⟨2, ![64, 128]⟩
abbrev S128 : Shape := ⟨1, ![128]⟩
abbrev S128x32 : Shape := ⟨2, ![128, 32]⟩
abbrev S32 : Shape := ⟨1, ![32]⟩
abbrev S262144x128 : Shape := ⟨2, ![262144, 128]⟩
abbrev S1x128 : Shape := ⟨2, ![1, 128]⟩
abbrev S_ : Shape := ⟨0, ![]⟩
abbrev S262144x32 : Shape := ⟨2, ![262144, 32]⟩
abbrev S1x32 : Shape := ⟨2, ![1, 32]⟩

abbrev nBuf : Space → Nat
  | .hbm => 16
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x128, .f32⟩
  | .hbm, ⟨2, _⟩ => ⟨S128, .f32⟩
  | .hbm, ⟨3, _⟩ => ⟨S128x32, .f32⟩
  | .hbm, ⟨4, _⟩ => ⟨S32, .f32⟩
  | .hbm, ⟨5, _⟩ => ⟨S262144x128, .f32⟩
  | .hbm, ⟨6, _⟩ => ⟨S1x128, .f32⟩
  | .hbm, ⟨7, _⟩ => ⟨S262144x128, .f32⟩
  | .hbm, ⟨8, _⟩ => ⟨S262144x128, .f32⟩
  | .hbm, ⟨9, _⟩ => ⟨S_, .f32⟩
  | .hbm, ⟨10, _⟩ => ⟨S262144x128, .f32⟩
  | .hbm, ⟨11, _⟩ => ⟨S262144x128, .f32⟩
  | .hbm, ⟨12, _⟩ => ⟨S262144x32, .f32⟩
  | .hbm, ⟨13, _⟩ => ⟨S1x32, .f32⟩
  | .hbm, ⟨14, _⟩ => ⟨S262144x32, .f32⟩
  | .hbm, ⟨15, _⟩ => ⟨S262144x32, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S32_S1x32_1 : S32.BroadcastsInDim S1x32 (![1] : Fin 1 → Fin S1x32.rank)
  bcast_S1x32_S262144x32_0_1 : S1x32.BroadcastsInDim S262144x32 (![0, 1] : Fin 2 → Fin S262144x32.rank)
  dot_S262144x64_S64x128_S262144x128_1_0_0_1_n_n_wf : DotDims.WF S262144x64 S64x128 S262144x128 [1] [0] [0] [1] [] []
  dot_S262144x128_S128x32_S262144x32_1_0_0_1_n_n_wf : DotDims.WF S262144x128 S128x32 S262144x32 [1] [0] [0] [1] [] []

variable [Facts₀]

def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf
def dot_S262144x128_S128x32_S262144x32_1_0_0_1_n_n : DotDims S262144x128 S128x32 S262144x32 where
  lhsContracting := [1]
  rhsContracting := [0]
  lhsNonContracting := [0]
  rhsNonContracting := [1]
  lhsBatch := []
  rhsBatch := []
  wf := dot_S262144x128_S128x32_S262144x32_1_0_0_1_n_n_wf

class Facts : Prop extends Facts₀ where

variable [Facts]
-- ==== Proof.LibHalves.lean ====
/-
  DOUBLED INDEX RANGES. A range of `N = 2 * n` positions is two halves of `n`; position `k` of half `s` is written
  `join h s k` and has value `k + n * s`. General facts, for any kernel that lays two copies of a thing side by side:

  * `eq_join`: every position of the doubled range is `join` of its quotient and remainder by `n`;
  * `sum_join`: a sum over the doubled range is the sum over the two halves;
  * `sum_mul_half`: a sum of products against a column that vanishes outside one half keeps that half only — on the
    extended reals, where `a * 0 = 0` for every `a`, the infinite ones included, so no finiteness is asked;
  * `concat_cols_apply`, `concat_rows_apply`, `concat_vec_apply`: a concatenation of two arrays of one shape (along the
    columns or the rows of a matrix, or of two vectors), read at a joined index, is the first array in half 0 and the
    second in half 1, at the position inside the half.
-/
import Idealize.ShloMosaic.Lib.ValueIdx
import Idealize.ShloMosaic.Lib.Pipeline.Value

noncomputable section

open scoped BigOperators

namespace Halves

open Idealize.ShloMosaic Idealize.ShloMosaic.ValueIdx

/-- Position `k` of half `s` of a range of `N = 2 * n` positions. -/
def join {n N : ℕ} (h : N = 2 * n) (s : Fin 2) (k : Fin n) : Fin N :=
  ⟨k.val + n * s.val, by
    have h1 := Nat.mul_le_mul_left n (Nat.le_of_lt_succ s.isLt)
    have h2 := k.isLt
    omega⟩

@[simp] theorem join_val {n N : ℕ} (h : N = 2 * n) (s : Fin 2) (k : Fin n) : (join h s k).val = k.val + n * s.val := rfl

/-- Every position of the doubled range is in exactly one half. -/
theorem eq_join {n N : ℕ} (h : N = 2 * n) (q : Fin N) (hn : 0 < n) :
    q = join h ⟨q.val / n, by have := q.isLt; rw [Nat.div_lt_iff_lt_mul hn]; omega⟩ ⟨q.val % n, Nat.mod_lt _ hn⟩ := by
  apply Fin.ext
  show q.val = q.val % n + n * (q.val / n)
  exact (Nat.mod_add_div _ _).symm

/-- A sum over the doubled range is the sum over the two halves. -/
theorem sum_join {M : Type*} [AddCommMonoid M] {n N : ℕ} (h : N = 2 * n) (f : Fin N → M) :
    ∑ j, f j = ∑ s : Fin 2, ∑ k : Fin n, f (join h s k) := by
  subst h
  rw [← (finProdFinEquiv (m := 2) (n := n)).sum_comp, Fintype.sum_prod_type]
  rfl

/-- A sum of products against a column that vanishes outside half `s` keeps that half only. -/
theorem sum_mul_half {n N : ℕ} (h : N = 2 * n) (s : Fin 2) (a W : Fin N → EReal) (w : Fin n → EReal)
    (hW : ∀ s' k, W (join h s' k) = if s' = s then w k else 0) :
    ∑ k, a k * W k = ∑ k : Fin n, a (join h s k) * w k := by
  rw [sum_join h, Fin.sum_univ_two]
  simp only [hW]
  rcases Fin.exists_fin_two.mp ⟨s, rfl⟩ with rfl | rfl
  · simp
  · simp

/-! ## Two arrays of one shape concatenated, read in a half -/

variable {α : Type}

/-- Two `[a, b]` arrays side by side (`[a, 2 b]`): column `j` of half `s` is column `j` of the `s`-th array. -/
theorem concat_cols_apply {a b B : ℕ} (hB : B = 2 * b) (X Y : (⟨2, ![a, b]⟩ : Shape).Idx → α)
    (h : Shape.Concatenates [(⟨2, ![a, b]⟩ : Shape), ⟨2, ![a, b]⟩] ⟨2, ![a, B]⟩ 1) (k : Fin a) (s : Fin 2) (j : Fin b) :
    concatenate (⟨2, ![a, B]⟩ : Shape) 1 [⟨⟨2, ![a, b]⟩, X⟩, ⟨⟨2, ![a, b]⟩, Y⟩] h (ix2 k (join hB s j))
      = if s = 0 then X (ix2 k j) else Y (ix2 k j) := by
  rcases Fin.exists_fin_two.mp ⟨s, rfl⟩ with rfl | rfl
  · rw [if_pos rfl]
    refine concatenate_pair_apply_left 1 X Y h _ rfl (ix2 k j) fun d => ?_
    match d with
    | ⟨0, _⟩ => rfl
    | ⟨1, _⟩ => show j.val = j.val + b * 0; omega
  · rw [if_neg (by decide)]
    refine concatenate_pair_apply_right 1 X Y h _ rfl rfl (ix2 k j) (fun d hd => ?_) ?_
    · match d with
      | ⟨0, _⟩ => rfl
      | ⟨1, _⟩ => exact absurd rfl hd
    · show j.val + b = j.val + b * 1; omega

/-- Two `[a, b]` arrays one above the other (`[2 a, b]`): row `k` of half `s` is row `k` of the `s`-th array. -/
theorem concat_rows_apply {a b A : ℕ} (hA : A = 2 * a) (X Y : (⟨2, ![a, b]⟩ : Shape).Idx → α)
    (h : Shape.Concatenates [(⟨2, ![a, b]⟩ : Shape), ⟨2, ![a, b]⟩] ⟨2, ![A, b]⟩ 0) (s : Fin 2) (k : Fin a) (j : Fin b) :
    concatenate (⟨2, ![A, b]⟩ : Shape) 0 [⟨⟨2, ![a, b]⟩, X⟩, ⟨⟨2, ![a, b]⟩, Y⟩] h (ix2 (join hA s k) j)
      = if s = 0 then X (ix2 k j) else Y (ix2 k j) := by
  rcases Fin.exists_fin_two.mp ⟨s, rfl⟩ with rfl | rfl
  · rw [if_pos rfl]
    refine concatenate_pair_apply_left 0 X Y h _ rfl (ix2 k j) fun d => ?_
    match d with
    | ⟨0, _⟩ => show k.val = k.val + a * 0; omega
    | ⟨1, _⟩ => rfl
  · rw [if_neg (by decide)]
    refine concatenate_pair_apply_right 0 X Y h _ rfl rfl (ix2 k j) (fun d hd => ?_) ?_
    · match d with
      | ⟨0, _⟩ => exact absurd rfl hd
      | ⟨1, _⟩ => rfl
    · show k.val + a = k.val + a * 1; omega

/-- Two vectors of length `n` end to end (`[2 n]`): position `j` of half `s` is position `j` of the `s`-th vector. -/
theorem concat_vec_apply {n N : ℕ} (hN : N = 2 * n) (X Y : (⟨1, ![n]⟩ : Shape).Idx → α)
    (h : Shape.Concatenates [(⟨1, ![n]⟩ : Shape), ⟨1, ![n]⟩] ⟨1, ![N]⟩ 0) (s : Fin 2) (j : Fin n) :
    concatenate (⟨1, ![N]⟩ : Shape) 0 [⟨⟨1, ![n]⟩, X⟩, ⟨⟨1, ![n]⟩, Y⟩] h (ix1 (join hN s j))
      = if s = 0 then X (ix1 j) else Y (ix1 j) := by
  rcases Fin.exists_fin_two.mp ⟨s, rfl⟩ with rfl | rfl
  · rw [if_pos rfl]
    refine concatenate_pair_apply_left 0 X Y h _ rfl (ix1 j) fun d => ?_
    match d with
    | ⟨0, _⟩ => show j.val = j.val + n * 0; omega
  · rw [if_neg (by decide)]
    refine concatenate_pair_apply_right 0 X Y h _ rfl rfl (ix1 j) (fun d hd => ?_) ?_
    · match d with
      | ⟨0, _⟩ => exact absurd rfl hd
    · show j.val + n = j.val + n * 1; omega

end Halves

end
-- ==== Proof.RowMlp.lean ====
/-
  The mathematics of a per-row two-layer perceptron, and of its PACKED form.

  For an input row `x` of 64 numbers the perceptron computes
    `y o = ∑ j, max (∑ k, x k * W1 k j + b1 j) 0 * W2 j o + b2 o`        (j over 128 hidden units, o over 32 outputs).
  The packed form lays two rows side by side (a row of 128), multiplies by the BLOCK-DIAGONAL matrices
  `[[W1, 0], [0, W1]]` and `[[W2, 0], [0, W2]]`, and adds the biases written twice. Because every entry off the diagonal
  blocks is zero and `a * 0 = 0` for EVERY extended real `a` (infinite ones included), a sum over the doubled index range
  keeps only the half that meets a diagonal block; so each half of the packed result is the perceptron of the
  corresponding row. No finiteness of the inputs is used anywhere: only that sums may be regrouped and that zero
  annihilates.

  A doubled index is written `join s k`: half `s` (0 or 1), position `k` inside the half, value `k + n * s` (the
  general facts about such indices are in the module of doubled index ranges).
-/
import proofs.«431270_j77429670412802_3_alg».proof.Proof.LibHalves
import Idealize.ShloMosaic.Lib.ValueIdx
import Idealize.ShloMosaic.PureOps.Ideal

noncomputable section

open scoped BigOperators

namespace Cert.RowMlp

open Idealize.ShloMosaic Idealize.ShloMosaic.ValueIdx Halves

/-! ## The perceptron of one row, and the packed row -/

/-- The hidden layer of one row. -/
def hidden (x : Fin 64 → EReal) (W1 : Fin 64 → Fin 128 → EReal) (b1 : Fin 128 → EReal) (j : Fin 128) : EReal :=
  max (∑ k : Fin 64, x k * W1 k j + b1 j) 0

/-- The perceptron of one row. -/
def perceptron (x : Fin 64 → EReal) (W1 : Fin 64 → Fin 128 → EReal) (b1 : Fin 128 → EReal)
    (W2 : Fin 128 → Fin 32 → EReal) (b2 : Fin 32 → EReal) (o : Fin 32) : EReal :=
  ∑ j : Fin 128, hidden x W1 b1 j * W2 j o + b2 o

/-- THE PACKED ROW: two rows `x' 0`, `x' 1` laid side by side (`xr`), block-diagonal matrices (`Wa`, `Wb`: the blocks on
    the diagonal are `W1`, `W2`, everything else zero) and doubled biases (`ba`, `bb`). Half `s` of the packed result is the
    perceptron of row `x' s`. -/
theorem packed_row (xr : Fin 128 → EReal) (Wa : Fin 128 → Fin 256 → EReal) (ba : Fin 256 → EReal)
    (Wb : Fin 256 → Fin 64 → EReal) (bb : Fin 64 → EReal)
    (x' : Fin 2 → Fin 64 → EReal) (W1 : Fin 64 → Fin 128 → EReal) (b1 : Fin 128 → EReal)
    (W2 : Fin 128 → Fin 32 → EReal) (b2 : Fin 32 → EReal)
    (hx : ∀ s k, xr (join (n := 64) rfl s k) = x' s k)
    (hWa : ∀ s k s' j, Wa (join (n := 64) rfl s k) (join (n := 128) rfl s' j) = if s = s' then W1 k j else 0)
    (hba : ∀ s j, ba (join (n := 128) rfl s j) = b1 j)
    (hWb : ∀ s j s' o, Wb (join (n := 128) rfl s j) (join (n := 32) rfl s' o) = if s = s' then W2 j o else 0)
    (hbb : ∀ s o, bb (join (n := 32) rfl s o) = b2 o) (s : Fin 2) (o : Fin 32) :
    ∑ j : Fin 256, max (∑ k : Fin 128, xr k * Wa k j + ba j) 0 * Wb j (join (n := 32) rfl s o) + bb (join (n := 32) rfl s o)
      = perceptron (x' s) W1 b1 W2 b2 o := by
  unfold perceptron hidden
  rw [hbb]
  congr 1
  rw [sum_mul_half (n := 128) rfl s (fun j => max (∑ k : Fin 128, xr k * Wa k j + ba j) 0)
    (fun j => Wb j (join (n := 32) rfl s o)) (fun j => W2 j o) (fun s' j => by rw [hWb])]
  refine Finset.sum_congr rfl fun j _ => ?_
  rw [hba, sum_mul_half (n := 64) rfl s xr (fun k => Wa k (join (n := 128) rfl s j)) (fun k => W1 k j)
    (fun s' k => by rw [hWa])]
  simp only [hx]

/-! ## Over whole arrays -/

/-- Row `s` of the pair of rows packed into packed row `r`: row `2 r + s`. -/
def row (r : Fin 131072) (s : Fin 2) : Fin 262144 := ⟨2 * r.val + s.val, by have := r.isLt; have := s.isLt; omega⟩

@[simp] theorem row_val (r : Fin 131072) (s : Fin 2) : (row r s).val = 2 * r.val + s.val := rfl

/-- THE RESULT, index by index: entry `(i, o)` is output `o` of the perceptron of row `i` of `x`. -/
def mlp (x : (⟨2, ![262144, 64]⟩ : Shape).Idx → EReal) (W1 : (⟨2, ![64, 128]⟩ : Shape).Idx → EReal)
    (b1 : (⟨1, ![128]⟩ : Shape).Idx → EReal) (W2 : (⟨2, ![128, 32]⟩ : Shape).Idx → EReal)
    (b2 : (⟨1, ![32]⟩ : Shape).Idx → EReal) : (⟨2, ![262144, 32]⟩ : Shape).Idx → EReal :=
  fun y => perceptron (fun k => x (ix2 (n0 := 262144) (y 0) k)) (fun k j => W1 (ix2 k j)) (fun j => b1 (ix1 j))
    (fun j o => W2 (ix2 j o)) (fun o => b2 (ix1 o)) (y 1)

end Cert.RowMlp

end
-- ==== Proof.RefRows.lean ====
/-
  The reference program computes the per-row perceptron: its result array, read one operation at a time and index by
  index, is `RowMlp.mlp` of its five arguments. Entry `(i, o)` of the reference is
  `∑ j, max (∑ k, x (i, k) * W1 (k, j) + b1 j) 0 * W2 (j, o) + b2 o`: the two products are sums over the contracted axis,
  the biases are rows broadcast over all rows, and the rectifier is the maximum with the zero word, which is `0`.
-/
import proofs.«431270_j77429670412802_3_alg».proof.Proof.Gen.ReferenceIdeal.Read
import proofs.«431270_j77429670412802_3_alg».proof.Proof.RowMlp

noncomputable section

open scoped BigOperators

namespace Cert.ReferenceIdeal.Rows

open Cert.ReferenceIdeal Cert.ReferenceIdeal.Read Idealize.ShloMosaic Idealize.ShloMosaic.ValueIdx

/-! ## The operations' index maps, as coordinates -/

theorem lidx5 (i : S262144x32.Idx) (k : Fin 128) : lidx_main_v5 i k = ix2 (n0 := 262144) (i 0) k :=
  funext fun a => Fin.ext (by match a with | ⟨0, _⟩ => rfl | ⟨1, _⟩ => rfl)
theorem ridx5 (i : S262144x32.Idx) (k : Fin 128) : ridx_main_v5 i k = ix2 (n1 := 32) k (i 1) :=
  funext fun a => Fin.ext (by match a with | ⟨0, _⟩ => rfl | ⟨1, _⟩ => rfl)
theorem lidx0 (i : S262144x128.Idx) (k : Fin 64) : lidx_main_v0 i k = ix2 (n0 := 262144) (i 0) k :=
  funext fun a => Fin.ext (by match a with | ⟨0, _⟩ => rfl | ⟨1, _⟩ => rfl)
theorem ridx0 (i : S262144x128.Idx) (k : Fin 64) : ridx_main_v0 i k = ix2 (n1 := 128) k (i 1) :=
  funext fun a => Fin.ext (by match a with | ⟨0, _⟩ => rfl | ⟨1, _⟩ => rfl)
theorem idx1 (i : S1x128.Idx) : idx_main_v1 i = ix1 (n := 128) (i 1) :=
  funext fun a => Fin.ext (by match a with | ⟨0, _⟩ => rfl)
theorem idx6 (i : S1x32.Idx) : idx_main_v6 i = ix1 (n := 32) (i 1) :=
  funext fun a => Fin.ext (by match a with | ⟨0, _⟩ => rfl)

/-- THE REFERENCE IS THE PERCEPTRON OF EACH ROW. -/
theorem ref_eq_mlp (x0 : S262144x64.Idx → EReal) (x1 : S64x128.Idx → EReal) (x2 : S128.Idx → EReal)
    (x3 : S128x32.Idx → EReal) (x4 : S32.Idx → EReal) :
    val_main_v8 (F := Ideal) x0 x1 x2 x3 x4 = RowMlp.mlp x0 x1 x2 x3 x4 := by
  funext i
  rw [val_main_v8_apply, val_main_v5_apply, val_main_v7_apply, val_main_v6_apply]
  unfold RowMlp.mlp RowMlp.perceptron RowMlp.hidden
  simp only [val_main_v4_apply, val_main_v3_apply, val_main_v0_apply, val_main_v2_apply, val_main_v1_apply,
    val_main_call0_v0_apply, val_main_call0_cst_apply, lidx5, ridx5, lidx0, ridx0, idx1, idx6,
    Ideal.addf_def, Ideal.maximumf_def, Ideal.ofBits_def, Ideal.ofBits_zero_f32]
  rfl

end Cert.ReferenceIdeal.Rows

end
-- ==== Proof.HostArrays.lean ====
/-
  The five arrays the host prepares for the region, read entry by entry in terms of the program's arguments.

  * the packed input: the `[262144, 64]` array re-read as `[131072, 128]`, so packed row `r` holds rows `2 r` and `2 r + 1`
    side by side (entry `k` of half `s` of packed row `r` is `x (2 r + s, k)`);
  * the two block-diagonal matrices `[[W, 0], [0, W]]`: the diagonal blocks are the argument, the rest the zero word;
  * the two biases written twice, as a row.
  The changes of float format on the matrices are the identity on the extended reals.
-/
import proofs.«431270_j77429670412802_3_alg».proof.Proof.Gen.KernelIdeal.Frame
import proofs.«431270_j77429670412802_3_alg».proof.Proof.LibHalves
import proofs.«431270_j77429670412802_3_alg».proof.Proof.RowMlp
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Halves

variable (m : (ℓ : Loc nD τ sig) → Buf (Elt Ideal) ℓ)

/-! ## The program's arguments on a core, as functions on their index sets -/

abbrev argX (c : Dev nD) : S262144x64.Idx → EReal := m ((c : Thread nD τ).loc main_arg0)
abbrev argW1 (c : Dev nD) : S64x128.Idx → EReal := m ((c : Thread nD τ).loc main_arg1)
abbrev argB1 (c : Dev nD) : S128.Idx → EReal := m ((c : Thread nD τ).loc main_arg2)
abbrev argW2 (c : Dev nD) : S128x32.Idx → EReal := m ((c : Thread nD τ).loc main_arg3)
abbrev argB2 (c : Dev nD) : S32.Idx → EReal := m ((c : Thread nD τ).loc main_arg4)

/-! ## The packed input -/

/-- The packed input as the region finds it: the argument re-read with rows of 128. -/
theorem xp_eq (c : Dev nD) : (V m c main_v14 : S131072x128.Idx → EReal)
    = shapeCast S131072x128 (argX m c) shapeCasts_S262144x64_S131072x128 := by
  show StableHlo.after hostOps0 (fun b => m (c, b)) (Proc.devRef .tc main_v14) = _
  after_results
  rfl

/-- Entry `k` of half `s` of packed row `r` is entry `k` of row `2 r + s` of the argument: both sit at row-major
    position `128 r + 64 s + k`. -/
theorem xp_apply (c : Dev nD) (r : Fin 131072) (s : Fin 2) (k : Fin 64) :
    (V m c main_v14 : S131072x128.Idx → EReal) (ix2 r (join (n := 64) (N := 128) rfl s k))
      = argX m c (ix2 (RowMlp.row r s) k) := by
  rw [xp_eq]
  refine shapeCast_apply _ _ _ _ ?_
  show ((⟨2, ![262144, 64]⟩ : Shape).rowMajor (ix2 (RowMlp.row r s) k)).val
    = ((⟨2, ![131072, 128]⟩ : Shape).rowMajor (ix2 r (join (n := 64) (N := 128) rfl s k))).val
  rw [Shape.rowMajor_val_two, Shape.rowMajor_val_two]
  show (2 * r.val + s.val) * 64 + k.val = r.val * 128 + (k.val + 64 * s.val)
  omega

/-! ## The block-diagonal matrices -/

/-- The first matrix as the region finds it: `[[W, 0], [0, W]]`, built by the host from `W` and a zero array. -/
theorem w1bd_eq (c : Dev nD) : (V m c main_v4 : S128x256.Idx → EReal)
    = truncf .bf16 (concatenate S128x256 0
        [⟨S64x256, concatenate S64x256 1 [⟨S64x128, (argW1 m c)⟩, ⟨S64x128, broadcastInDim S64x128 ![] bcast_S_S64x128 (constant (F := Ideal) S_ .f32 0x00000000#32)⟩] concatenates_S64x128_S64x128_S64x256_d1⟩,
         ⟨S64x256, concatenate S64x256 1 [⟨S64x128, broadcastInDim S64x128 ![] bcast_S_S64x128 (constant (F := Ideal) S_ .f32 0x00000000#32)⟩, ⟨S64x128, (argW1 m c)⟩] concatenates_S64x128_S64x128_S64x256_d1⟩]
        concatenates_S64x256_S64x256_S128x256_d0) bitsLt_bf16_f32 := by
  show StableHlo.after hostOps0 (fun b => m (c, b)) (Proc.devRef .tc main_v4) = _
  after_results

/-- The zero array the host pads with reads `0` everywhere. -/
theorem w1bd_zero (i : S64x128.Idx) :
    broadcastInDim S64x128 ![] bcast_S_S64x128 (constant (F := Ideal) S_ .f32 0x00000000#32) i = (0 : EReal) := by
  rw [broadcastInDim_apply _ bcast_S_S64x128 _ i ix0 (fun d => d.elim0), constant_apply, Ideal.ofBits_zero_f32]

/-- Entry (half `s`, `k`; half `s'`, `j`) of it: `W (k, j)` on the diagonal blocks, `0` off them. -/
theorem w1bd_apply (c : Dev nD) (s : Fin 2) (k : Fin 64) (s' : Fin 2) (j : Fin 128) :
    (V m c main_v4 : S128x256.Idx → EReal) (ix2 (join (n := 64) (N := 128) rfl s k) (join (n := 128) (N := 256) rfl s' j))
      = if s = s' then argW1 m c (ix2 k j) else (0 : EReal) := by
  rw [w1bd_eq, truncf_apply]
  refine (concat_rows_apply (a := 64) (b := 256) (A := 128) rfl _ _ concatenates_S64x256_S64x256_S128x256_d0 s k (join (n := 128) (N := 256) rfl s' j)).trans ?_
  rcases Fin.exists_fin_two.mp ⟨s, rfl⟩ with rfl | rfl
  · rw [if_pos rfl]
    refine (concat_cols_apply (a := 64) (b := 128) (B := 256) rfl _ _ concatenates_S64x128_S64x128_S64x256_d1 k s' j).trans ?_
    rcases Fin.exists_fin_two.mp ⟨s', rfl⟩ with rfl | rfl
    · rw [if_pos rfl, if_pos rfl]
    · rw [if_neg (by decide), if_neg (by decide), w1bd_zero]
  · rw [if_neg (by decide)]
    refine (concat_cols_apply (a := 64) (b := 128) (B := 256) rfl _ _ concatenates_S64x128_S64x128_S64x256_d1 k s' j).trans ?_
    rcases Fin.exists_fin_two.mp ⟨s', rfl⟩ with rfl | rfl
    · rw [if_pos rfl, if_neg (by decide), w1bd_zero]
    · rw [if_neg (by decide), if_pos rfl]

/-- The second matrix as the region finds it: `[[W, 0], [0, W]]`, built by the host from `W` and a zero array. -/
theorem w2bd_eq (c : Dev nD) : (V m c main_v9 : S256x64.Idx → EReal)
    = truncf .bf16 (concatenate S256x64 0
        [⟨S128x64, concatenate S128x64 1 [⟨S128x32, (argW2 m c)⟩, ⟨S128x32, broadcastInDim S128x32 ![] bcast_S_S128x32 (constant (F := Ideal) S_ .f32 0x00000000#32)⟩] concatenates_S128x32_S128x32_S128x64_d1⟩,
         ⟨S128x64, concatenate S128x64 1 [⟨S128x32, broadcastInDim S128x32 ![] bcast_S_S128x32 (constant (F := Ideal) S_ .f32 0x00000000#32)⟩, ⟨S128x32, (argW2 m c)⟩] concatenates_S128x32_S128x32_S128x64_d1⟩]
        concatenates_S128x64_S128x64_S256x64_d0) bitsLt_bf16_f32 := by
  show StableHlo.after hostOps0 (fun b => m (c, b)) (Proc.devRef .tc main_v9) = _
  after_results

/-- The zero array the host pads with reads `0` everywhere. -/
theorem w2bd_zero (i : S128x32.Idx) :
    broadcastInDim S128x32 ![] bcast_S_S128x32 (constant (F := Ideal) S_ .f32 0x00000000#32) i = (0 : EReal) := by
  rw [broadcastInDim_apply _ bcast_S_S128x32 _ i ix0 (fun d => d.elim0), constant_apply, Ideal.ofBits_zero_f32]

/-- Entry (half `s`, `k`; half `s'`, `j`) of it: `W (k, j)` on the diagonal blocks, `0` off them. -/
theorem w2bd_apply (c : Dev nD) (s : Fin 2) (k : Fin 128) (s' : Fin 2) (j : Fin 32) :
    (V m c main_v9 : S256x64.Idx → EReal) (ix2 (join (n := 128) (N := 256) rfl s k) (join (n := 32) (N := 64) rfl s' j))
      = if s = s' then argW2 m c (ix2 k j) else (0 : EReal) := by
  rw [w2bd_eq, truncf_apply]
  refine (concat_rows_apply (a := 128) (b := 64) (A := 256) rfl _ _ concatenates_S128x64_S128x64_S256x64_d0 s k (join (n := 32) (N := 64) rfl s' j)).trans ?_
  rcases Fin.exists_fin_two.mp ⟨s, rfl⟩ with rfl | rfl
  · rw [if_pos rfl]
    refine (concat_cols_apply (a := 128) (b := 32) (B := 64) rfl _ _ concatenates_S128x32_S128x32_S128x64_d1 k s' j).trans ?_
    rcases Fin.exists_fin_two.mp ⟨s', rfl⟩ with rfl | rfl
    · rw [if_pos rfl, if_pos rfl]
    · rw [if_neg (by decide), if_neg (by decide), w2bd_zero]
  · rw [if_neg (by decide)]
    refine (concat_cols_apply (a := 128) (b := 32) (B := 64) rfl _ _ concatenates_S128x32_S128x32_S128x64_d1 k s' j).trans ?_
    rcases Fin.exists_fin_two.mp ⟨s', rfl⟩ with rfl | rfl
    · rw [if_pos rfl, if_neg (by decide), w2bd_zero]
    · rw [if_neg (by decide), if_pos rfl]

/-! ## The doubled biases -/

/-- The first bias row as the region finds it: the bias written twice, as one row. -/
theorem b1t_eq (c : Dev nD) : (V m c main_v11 : S1x256.Idx → EReal)
    = shapeCast S1x256 (concatenate S256 0 [⟨S128, (argB1 m c)⟩, ⟨S128, (argB1 m c)⟩] concatenates_S128_S128_S256_d0) shapeCasts_S256_S1x256 := by
  show StableHlo.after hostOps0 (fun b => m (c, b)) (Proc.devRef .tc main_v11) = _
  after_results
  rfl

/-- Entry `j` of either half of it is entry `j` of the bias. -/
theorem b1t_apply (c : Dev nD) (s : Fin 2) (j : Fin 128) :
    (V m c main_v11 : S1x256.Idx → EReal) (ix2 (0 : Fin 1) (join (n := 128) (N := 256) rfl s j))
      = argB1 m c (ix1 j) := by
  rw [b1t_eq]
  refine (shapeCast_a_1a_apply (a := 256) _ shapeCasts_S256_S1x256 (0 : Fin 1) (join (n := 128) (N := 256) rfl s j)).trans ?_
  refine (concat_vec_apply (n := 128) (N := 256) rfl _ _ concatenates_S128_S128_S256_d0 s j).trans ?_
  exact ite_self _

/-- The second bias row as the region finds it: the bias written twice, as one row. -/
theorem b2t_eq (c : Dev nD) : (V m c main_v13 : S1x64.Idx → EReal)
    = shapeCast S1x64 (concatenate S64 0 [⟨S32, (argB2 m c)⟩, ⟨S32, (argB2 m c)⟩] concatenates_S32_S32_S64_d0) shapeCasts_S64_S1x64 := by
  show StableHlo.after hostOps0 (fun b => m (c, b)) (Proc.devRef .tc main_v13) = _
  after_results
  rfl

/-- Entry `j` of either half of it is entry `j` of the bias. -/
theorem b2t_apply (c : Dev nD) (s : Fin 2) (j : Fin 32) :
    (V m c main_v13 : S1x64.Idx → EReal) (ix2 (0 : Fin 1) (join (n := 32) (N := 64) rfl s j))
      = argB2 m c (ix1 j) := by
  rw [b2t_eq]
  refine (shapeCast_a_1a_apply (a := 64) _ shapeCasts_S64_S1x64 (0 : Fin 1) (join (n := 32) (N := 64) rfl s j)).trans ?_
  refine (concat_vec_apply (n := 32) (N := 64) rfl _ _ concatenates_S32_S32_S64_d0 s j).trans ?_
  exact ite_self _

end Cert.KernelIdeal.HostArrays

end
-- ==== Proof.Payload.lean ====
/-
  What the kernel body stores, entry by entry. The body loads a block of 4096 packed rows `x0`, the two matrices `x1`
  (128 × 256) and `x3` (256 × 64) and the two bias rows `x2`, `x4`, and stores
    `(p, q) ↦ ∑ j, max (∑ k, x0 (p, k) * x1 (k, j) + x2 (0, j)) 0 * x3 (j, q) + x4 (0, q)`:
  both products accumulate into zero, so each is the plain sum over the contracted axis; the changes of float format are
  the identity on the extended reals; the bias rows are broadcast over the 4096 rows; the rectifier's zero word is `0`.
-/
import proofs.«431270_j77429670412802_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The two matrix products at an entry -/

theorem lhs1_0 (i : S4096x256.Idx) (q : dot_S4096x128_S128x256_S4096x256_1_0_0_1_n_n.contr.Idx) : (dot_S4096x128_S128x256_S4096x256_1_0_0_1_n_n.lhsIdx i q 0).val = (i 0).val := by
  unfold DotDims.lhsIdx
  rw [dif_neg (show ¬(0 : Fin S4096x128.rank) ∈ dot_S4096x128_S128x256_S4096x256_1_0_0_1_n_n.lhsBatch by decide), dif_pos (show (0 : Fin S4096x128.rank) ∈ dot_S4096x128_S128x256_S4096x256_1_0_0_1_n_n.lhsNonContracting by decide)]
  rfl
theorem lhs1_1 (i : S4096x256.Idx) (q : dot_S4096x128_S128x256_S4096x256_1_0_0_1_n_n.contr.Idx) : (dot_S4096x128_S128x256_S4096x256_1_0_0_1_n_n.lhsIdx i q 1).val = (q ⟨0, by decide⟩).val :=
  dot_S4096x128_S128x256_S4096x256_1_0_0_1_n_n.lhsIdx_val_of_single rfl i q
theorem rhs1_0 (i : S4096x256.Idx) (q : dot_S4096x128_S128x256_S4096x256_1_0_0_1_n_n.contr.Idx) : (dot_S4096x128_S128x256_S4096x256_1_0_0_1_n_n.rhsIdx i q 0).val = (q ⟨0, by decide⟩).val :=
  dot_S4096x128_S128x256_S4096x256_1_0_0_1_n_n.rhsIdx_val_of_single rfl i q
theorem rhs1_1 (i : S4096x256.Idx) (q : dot_S4096x128_S128x256_S4096x256_1_0_0_1_n_n.contr.Idx) : (dot_S4096x128_S128x256_S4096x256_1_0_0_1_n_n.rhsIdx i q 1).val = (i 1).val := by
  unfold DotDims.rhsIdx
  rw [dif_neg (show ¬(1 : Fin S128x256.rank) ∈ dot_S4096x128_S128x256_S4096x256_1_0_0_1_n_n.rhsBatch by decide), dif_pos (show (1 : Fin S128x256.rank) ∈ dot_S4096x128_S128x256_S4096x256_1_0_0_1_n_n.rhsNonContracting by decide)]
  rfl

/-- The first product into a zero accumulator, at entry `(p, j)`: the sum over the contracted axis of the left operand's row `p` times
    the right operand's column `j`. -/
theorem mm1_apply (a : FVec Ideal S4096x128 .bf16) (b : FVec Ideal S128x256 .bf16) (p : Fin 4096) (j : Fin 256) :
    matmul dot_S4096x128_S128x256_S4096x256_1_0_0_1_n_n none a b (constant (F := Ideal) S4096x256 .f32 0x00000000#32) (ix2 p j) = ∑ k : Fin 128, a (ix2 p k) * b (ix2 k j) := by
  simp only [matmul]
  rw [Ideal.matmul_constant_zero_apply, ← Equiv.sum_comp (contrEquiv1 dot_S4096x128_S128x256_S4096x256_1_0_0_1_n_n 128 rfl rfl).symm]
  refine Finset.sum_congr rfl fun k _ => ?_
  have hk := contrEquiv1_symm_val dot_S4096x128_S128x256_S4096x256_1_0_0_1_n_n 128 rfl rfl k
  have el : dot_S4096x128_S128x256_S4096x256_1_0_0_1_n_n.lhsIdx (ix2 p j) ((contrEquiv1 dot_S4096x128_S128x256_S4096x256_1_0_0_1_n_n 128 rfl rfl).symm k) = ix2 p k := funext fun a => Fin.ext (by
    match a with
    | ⟨0, _⟩ => exact lhs1_0 _ _
    | ⟨1, _⟩ => exact (lhs1_1 _ _).trans hk)
  have er : dot_S4096x128_S128x256_S4096x256_1_0_0_1_n_n.rhsIdx (ix2 p j) ((contrEquiv1 dot_S4096x128_S128x256_S4096x256_1_0_0_1_n_n 128 rfl rfl).symm k) = ix2 k j := funext fun a => Fin.ext (by
    match a with
    | ⟨0, _⟩ => exact (rhs1_0 _ _).trans hk
    | ⟨1, _⟩ => exact rhs1_1 _ _)
  rw [el, er]

theorem lhs2_0 (i : S4096x64.Idx) (q : dot_S4096x256_S256x64_S4096x64_1_0_0_1_n_n.contr.Idx) : (dot_S4096x256_S256x64_S4096x64_1_0_0_1_n_n.lhsIdx i q 0).val = (i 0).val := by
  unfold DotDims.lhsIdx
  rw [dif_neg (show ¬(0 : Fin S4096x256.rank) ∈ dot_S4096x256_S256x64_S4096x64_1_0_0_1_n_n.lhsBatch by decide), dif_pos (show (0 : Fin S4096x256.rank) ∈ dot_S4096x256_S256x64_S4096x64_1_0_0_1_n_n.lhsNonContracting by decide)]
  rfl
theorem lhs2_1 (i : S4096x64.Idx) (q : dot_S4096x256_S256x64_S4096x64_1_0_0_1_n_n.contr.Idx) : (dot_S4096x256_S256x64_S4096x64_1_0_0_1_n_n.lhsIdx i q 1).val = (q ⟨0, by decide⟩).val :=
  dot_S4096x256_S256x64_S4096x64_1_0_0_1_n_n.lhsIdx_val_of_single rfl i q
theorem rhs2_0 (i : S4096x64.Idx) (q : dot_S4096x256_S256x64_S4096x64_1_0_0_1_n_n.contr.Idx) : (dot_S4096x256_S256x64_S4096x64_1_0_0_1_n_n.rhsIdx i q 0).val = (q ⟨0, by decide⟩).val :=
  dot_S4096x256_S256x64_S4096x64_1_0_0_1_n_n.rhsIdx_val_of_single rfl i q
theorem rhs2_1 (i : S4096x64.Idx) (q : dot_S4096x256_S256x64_S4096x64_1_0_0_1_n_n.contr.Idx) : (dot_S4096x256_S256x64_S4096x64_1_0_0_1_n_n.rhsIdx i q 1).val = (i 1).val := by
  unfold DotDims.rhsIdx
  rw [dif_neg (show ¬(1 : Fin S256x64.rank) ∈ dot_S4096x256_S256x64_S4096x64_1_0_0_1_n_n.rhsBatch by decide), dif_pos (show (1 : Fin S256x64.rank) ∈ dot_S4096x256_S256x64_S4096x64_1_0_0_1_n_n.rhsNonContracting by decide)]
  rfl

/-- The second product into a zero accumulator, at entry `(p, j)`: the sum over the contracted axis of the left operand's row `p` times
    the right operand's column `j`. -/
theorem mm2_apply (a : FVec Ideal S4096x256 .bf16) (b : FVec Ideal S256x64 .bf16) (p : Fin 4096) (j : Fin 64) :
    matmul dot_S4096x256_S256x64_S4096x64_1_0_0_1_n_n none a b (constant (F := Ideal) S4096x64 .f32 0x00000000#32) (ix2 p j) = ∑ k : Fin 256, a (ix2 p k) * b (ix2 k j) := by
  simp only [matmul]
  rw [Ideal.matmul_constant_zero_apply, ← Equiv.sum_comp (contrEquiv1 dot_S4096x256_S256x64_S4096x64_1_0_0_1_n_n 256 rfl rfl).symm]
  refine Finset.sum_congr rfl fun k _ => ?_
  have hk := contrEquiv1_symm_val dot_S4096x256_S256x64_S4096x64_1_0_0_1_n_n 256 rfl rfl k
  have el : dot_S4096x256_S256x64_S4096x64_1_0_0_1_n_n.lhsIdx (ix2 p j) ((contrEquiv1 dot_S4096x256_S256x64_S4096x64_1_0_0_1_n_n 256 rfl rfl).symm k) = ix2 p k := funext fun a => Fin.ext (by
    match a with
    | ⟨0, _⟩ => exact lhs2_0 _ _
    | ⟨1, _⟩ => exact (lhs2_1 _ _).trans hk)
  have er : dot_S4096x256_S256x64_S4096x64_1_0_0_1_n_n.rhsIdx (ix2 p j) ((contrEquiv1 dot_S4096x256_S256x64_S4096x64_1_0_0_1_n_n 256 rfl rfl).symm k) = ix2 k j := funext fun a => Fin.ext (by
    match a with
    | ⟨0, _⟩ => exact (rhs2_0 _ _).trans hk
    | ⟨1, _⟩ => exact rhs2_1 _ _)
  rw [el, er]

/-! ## The stored value at an entry -/

/-- Entry `(p, q)` of what the body stores, from the loaded blocks. -/
theorem pay_apply (x0 : Vec Ideal S4096x128 .f32) (x1 : Vec Ideal S128x256 .bf16) (x2 : Vec Ideal S1x256 .f32)
    (x3 : Vec Ideal S256x64 .bf16) (x4 : Vec Ideal S1x64 .f32) (p : Fin 4096) (q : Fin 64) :
    k0_pay1 (F := Ideal) x0 x1 x2 x3 x4 (ix2 p q)
      = ∑ j : Fin 256, max (∑ k : Fin 128, x0 (ix2 p k) * x1 (ix2 k j) + x2 (ix2 (0 : Fin 1) j)) 0 * x3 (ix2 j q)
        + x4 (ix2 (0 : Fin 1) q) := by
  unfold k0_pay1
  simp only [shapeCast_self]
  rw [addf_apply, mm2_apply, broadcastTo_1b_ab_apply]
  congr 1
  refine Finset.sum_congr rfl fun j _ => ?_
  rw [truncf_apply, maximumf_apply, addf_apply, mm1_apply, broadcastTo_1b_ab_apply, broadcast_apply]
  simp only [truncf_apply, Ideal.ofBits_def, Ideal.ofBits_zero_f32]

end Cert.KernelIdeal.Body

end
-- ==== Proof.KernelRows.lean ====
/-
  The kernel's result, read off its run. Grid point `t` (of 32) works on packed rows `4096 t … 4096 t + 4095`: its input
  block is those rows of the packed input, the two matrices and the two bias rows are the whole arrays at every point, and
  it writes back the same rows of the packed result. Entry (row `p`, half `s`, output `o`) of what point `t` stores is
  the perceptron of row `2 (4096 t + p) + s` of the argument — the packed-row law (`RowMlp.packed_row`) applied to the
  body's stored value. The 32 blocks tile the packed result, so after the run it holds, at (packed row `R`, half `s`,
  output `o`), the perceptron of row `2 R + s`; the final re-reading of the `[131072, 64]` array as `[262144, 32]` puts
  that at entry `(2 R + s, o)`: the kernel's result is `RowMlp.mlp` of its arguments.
-/
import proofs.«431270_j77429670412802_3_alg».proof.Proof.Gen.KernelIdeal.Frame
import proofs.«431270_j77429670412802_3_alg».proof.Proof.HostArrays
import proofs.«431270_j77429670412802_3_alg».proof.Proof.Payload
import proofs.«431270_j77429670412802_3_alg».proof.Proof.RowMlp
import Idealize.ShloMosaic.Lib.Pipeline.Value
import Idealize.ShloMosaic.Lib.StableHlo.Run
import Idealize.ShloMosaic.Lib.Tactic

noncomputable section

open scoped BigOperators

namespace Cert.KernelIdeal.Rows

open Cert.KernelIdeal Cert.KernelIdeal.Gen Cert.KernelIdeal.HostArrays Cert.KernelIdeal.Body
open Idealize.ShloMosaic Idealize.ShloMosaic.TcCoe Idealize.SL.Sem Idealize.ShloMosaic.StableHlo
open Idealize.ShloMosaic.ValueIdx Halves
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The packed result as one function of the arguments -/

/-- Entry (packed row `R`, column `q`) of the packed result: output `q % 32` of the perceptron of row `2 R + q / 32`. -/
def packed (c : Dev nD) : S131072x64.Idx → EReal := fun y =>
  RowMlp.mlp (argX m c) (argW1 m c) (argB1 m c) (argW2 m c) (argB2 m c)
    (ix2 (RowMlp.row (y 0) ⟨(y 1).val / 32, by have := idx2_lt1 y; show (y 1).val / 32 < 2; omega⟩)
      (⟨(y 1).val % 32, Nat.mod_lt _ (by decide)⟩ : Fin 32))

/-- At a joined column: half `s`, output `o`. -/
theorem packed_join (c : Dev nD) (R : Fin 131072) (s : Fin 2) (o : Fin 32) :
    packed m c (ix2 R (join (n := 32) (N := 64) rfl s o))
      = RowMlp.mlp (argX m c) (argW1 m c) (argB1 m c) (argW2 m c) (argB2 m c) (ix2 (RowMlp.row R s) o) := by
  unfold packed
  have hs := s.isLt
  have ho := o.isLt
  congr 2
  · apply Fin.ext
    show 2 * R.val + (o.val + 32 * s.val) / 32 = 2 * R.val + s.val
    omega
  · apply Fin.ext
    show (o.val + 32 * s.val) % 32 = o.val
    omega

/-! ## One grid point, over variables: the body's stored value is the perceptron of the point's rows -/

/-- If the loaded blocks are what the host prepared (the packed rows from `4096 t` on, the block-diagonal matrices, the doubled
    biases), entry (row `p`, half `s`, output `o`) of the stored value is the perceptron of row `2 (4096 t + p) + s`. -/
theorem point_eq (x0 : Vec Ideal S4096x128 .f32) (x1 : Vec Ideal S128x256 .bf16) (x2 : Vec Ideal S1x256 .f32)
    (x3 : Vec Ideal S256x64 .bf16) (x4 : Vec Ideal S1x64 .f32)
    (X : S262144x64.Idx → EReal) (W1 : S64x128.Idx → EReal) (b1 : S128.Idx → EReal) (W2 : S128x32.Idx → EReal) (b2 : S32.Idx → EReal)
    (R : Fin 131072) (p : Fin 4096)
    (h0 : ∀ (s : Fin 2) (k : Fin 64), x0 (ix2 p (join (n := 64) (N := 128) rfl s k)) = X (ix2 (RowMlp.row R s) k))
    (h1 : ∀ (s : Fin 2) (k : Fin 64) (s' : Fin 2) (j : Fin 128),
      x1 (ix2 (join (n := 64) (N := 128) rfl s k) (join (n := 128) (N := 256) rfl s' j)) = if s = s' then W1 (ix2 k j) else 0)
    (h2 : ∀ (s : Fin 2) (j : Fin 128), x2 (ix2 (0 : Fin 1) (join (n := 128) (N := 256) rfl s j)) = b1 (ix1 j))
    (h3 : ∀ (s : Fin 2) (j : Fin 128) (s' : Fin 2) (o : Fin 32),
      x3 (ix2 (join (n := 128) (N := 256) rfl s j) (join (n := 32) (N := 64) rfl s' o)) = if s = s' then W2 (ix2 j o) else 0)
    (h4 : ∀ (s : Fin 2) (o : Fin 32), x4 (ix2 (0 : Fin 1) (join (n := 32) (N := 64) rfl s o)) = b2 (ix1 o))
    (s : Fin 2) (o : Fin 32) :
    k0_pay1 (F := Ideal) x0 x1 x2 x3 x4 (ix2 p (join (n := 32) (N := 64) rfl s o))
      = RowMlp.mlp X W1 b1 W2 b2 (ix2 (RowMlp.row R s) o) := by
  rw [pay_apply]
  exact RowMlp.packed_row (fun k => x0 (ix2 p k)) (fun k j => x1 (ix2 k j)) (fun j => x2 (ix2 (0 : Fin 1) j))
    (fun j q => x3 (ix2 j q)) (fun q => x4 (ix2 (0 : Fin 1) q))
    (fun s k => X (ix2 (RowMlp.row R s) k)) (fun k j => W1 (ix2 k j)) (fun j => b1 (ix1 j)) (fun j o => W2 (ix2 j o))
    (fun o => b2 (ix1 o)) h0 h1 h2 h3 h4 s o

/-! ## The windows' blocks at a point -/

/-- Where the printed index maps send point `t`: the input and the result move down one block of rows per point; the matrices
    and bias rows stay. Decided over the 32 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The input block at point `t` is rows `4096 t …` of the packed input. -/
theorem iblk0_apply (c : Dev nD) (t : Fin cfg0.N) (p : Fin 4096) (k : Fin 128) (R : Fin 131072) (hR : R.val = t.val * 4096 + p.val) :
    (iblk m c 0 t : Vec Ideal S4096x128 .f32) (ix2 p k) = (V m c main_v14 : S131072x128.Idx → EReal) (ix2 R k) := by
  obtain ⟨e0, e1, -⟩ := idx_facts t
  unfold iblk
  rw [View.read_apply]
  show (V m c main_v14 : S131072x128.Idx → EReal) _ = (V m c main_v14 : S131072x128.Idx → EReal) _
  congr 1
  funext a
  apply Fin.ext
  match a with
  | ⟨0, _⟩ => show win0_0.index t (0 : Fin 2) * 4096 + 1 * p.val = R.val; rw [e0, hR]; omega
  | ⟨1, _⟩ => show win0_0.index t (1 : Fin 2) * 128 + 1 * k.val = k.val; rw [e1]; omega

/-- Window 1's block at every point is its whole array. -/
theorem iblk1_apply (c : Dev nD) (t : Fin cfg0.N) (a0 : Fin 128) (a1 : Fin 256) :
    (iblk m c 1 t : Vec Ideal S128x256 .bf16) (ix2 a0 a1) = (V m c main_v4 : S128x256.Idx → EReal) (ix2 a0 a1) := by
  obtain ⟨-, -, f0, f1, -⟩ := idx_facts t
  unfold iblk
  rw [View.read_apply]
  show (V m c main_v4 : S128x256.Idx → EReal) _ = (V m c main_v4 : S128x256.Idx → EReal) _
  congr 1
  funext a
  apply Fin.ext
  match a with
  | ⟨0, _⟩ => show win0_1.index t (0 : Fin 2) * 128 + 1 * a0.val = a0.val; rw [f0]; omega
  | ⟨1, _⟩ => show win0_1.index t (1 : Fin 2) * 256 + 1 * a1.val = a1.val; rw [f1]; omega

/-- Window 2's block at every point is its whole array. -/
theorem iblk2_apply (c : Dev nD) (t : Fin cfg0.N) (a0 : Fin 1) (a1 : Fin 256) :
    (iblk m c 2 t : Vec Ideal S1x256 .f32) (ix2 a0 a1) = (V m c main_v11 : S1x256.Idx → EReal) (ix2 a0 a1) := by
  obtain ⟨-, -, -, -, f0, f1, -⟩ := idx_facts t
  unfold iblk
  rw [View.read_apply]
  show (V m c main_v11 : S1x256.Idx → EReal) _ = (V m c main_v11 : S1x256.Idx → EReal) _
  congr 1
  funext a
  apply Fin.ext
  match a with
  | ⟨0, _⟩ => show win0_2.index t (0 : Fin 2) * 1 + 1 * a0.val = a0.val; rw [f0]; omega
  | ⟨1, _⟩ => show win0_2.index t (1 : Fin 2) * 256 + 1 * a1.val = a1.val; rw [f1]; omega

/-- Window 3's block at every point is its whole array. -/
theorem iblk3_apply (c : Dev nD) (t : Fin cfg0.N) (a0 : Fin 256) (a1 : Fin 64) :
    (iblk m c 3 t : Vec Ideal S256x64 .bf16) (ix2 a0 a1) = (V m c main_v9 : S256x64.Idx → EReal) (ix2 a0 a1) := by
  obtain ⟨-, -, -, -, -, -, f0, f1, -⟩ := idx_facts t
  unfold iblk
  rw [View.read_apply]
  show (V m c main_v9 : S256x64.Idx → EReal) _ = (V m c main_v9 : S256x64.Idx → EReal) _
  congr 1
  funext a
  apply Fin.ext
  match a with
  | ⟨0, _⟩ => show win0_3.index t (0 : Fin 2) * 256 + 1 * a0.val = a0.val; rw [f0]; omega
  | ⟨1, _⟩ => show win0_3.index t (1 : Fin 2) * 64 + 1 * a1.val = a1.val; rw [f1]; omega

/-- Window 4's block at every point is its whole array. -/
theorem iblk4_apply (c : Dev nD) (t : Fin cfg0.N) (a0 : Fin 1) (a1 : Fin 64) :
    (iblk m c 4 t : Vec Ideal S1x64 .f32) (ix2 a0 a1) = (V m c main_v13 : S1x64.Idx → EReal) (ix2 a0 a1) := by
  obtain ⟨-, -, -, -, -, -, -, -, f0, f1, -⟩ := idx_facts t
  unfold iblk
  rw [View.read_apply]
  show (V m c main_v13 : S1x64.Idx → EReal) _ = (V m c main_v13 : S1x64.Idx → EReal) _
  congr 1
  funext a
  apply Fin.ext
  match a with
  | ⟨0, _⟩ => show win0_4.index t (0 : Fin 2) * 1 + 1 * a0.val = a0.val; rw [f0]; omega
  | ⟨1, _⟩ => show win0_4.index t (1 : Fin 2) * 64 + 1 * a1.val = a1.val; rw [f1]; omega

/-! ## What a point writes back, and the packed result after the run -/

/-- WHAT POINT `t` WRITES BACK is block `t` of `packed`. -/
theorem flushed_eq (c : Dev nD) (t : Fin cfg0.N) :
    (dats m 0 c).flushed 5 t = ((cfg0.win 5).blk t).view.read (Elt Ideal) (packed m c) := by
  show (cfg0.win 5).cut (grid0.coords t) ((dats m 0 c).after 5 t) = _
  rw [after0_5]
  unfold out0_5
  rw [View.canon_unit_zero hz]
  simp only [View.ld_unit_zero (S := S4096x128) hz, View.ld_unit_zero (S := S128x256) hz, View.ld_unit_zero (S := S1x256) hz,
    View.ld_unit_zero (S := S256x64) hz, View.ld_unit_zero (S := S1x64) hz]
  have ht : t.val < 32 := by have h := t.isLt; have hN : cfg0.N = 32 := N_0; omega
  obtain ⟨-, -, -, -, -, -, -, -, -, -, e0, e1⟩ := idx_facts t
  funext y
  obtain ⟨p, q, rfl⟩ : ∃ (p : Fin 4096) (q : Fin 64), y = ix2 p q := ⟨y 0, y 1, eq_ix2 y⟩
  obtain ⟨s, o, rfl⟩ : ∃ (s : Fin 2) (o : Fin 32), q = join (n := 32) (N := 64) rfl s o := ⟨_, _, eq_join (n := 32) (N := 64) rfl q (by decide)⟩
  have hp := p.isLt
  have hs := s.isLt
  have hR : t.val * 4096 + p.val < 131072 := by omega
  have hemb : ((cfg0.win 5).blk t).view.emb (ix2 p (join (n := 32) (N := 64) rfl s o))
      = ix2 (⟨t.val * 4096 + p.val, hR⟩ : Fin 131072) (join (n := 32) (N := 64) rfl s o) := by
    funext a
    apply Fin.ext
    match a with
    | ⟨0, _⟩ => show win0_5.index t (0 : Fin 2) * 4096 + 1 * p.val = t.val * 4096 + p.val; rw [e0]; omega
    | ⟨1, _⟩ => show win0_5.index t (1 : Fin 2) * 64 + 1 * (o.val + 32 * s.val) = o.val + 32 * s.val; rw [e1]; omega
  rw [View.read_apply, hemb, packed_join]
  exact point_eq (iblk m c 0 t) (iblk m c 1 t) (iblk m c 2 t) (iblk m c 3 t) (iblk m c 4 t)
    (argX m c) (argW1 m c) (argB1 m c) (argW2 m c) (argB2 m c) ⟨t.val * 4096 + p.val, hR⟩ p
    (fun s k => (iblk0_apply m c t p _ _ rfl).trans (xp_apply m c _ s k))
    (fun s k s' j => (iblk1_apply m c t _ _).trans (w1bd_apply m c s k s' j))
    (fun s j => (iblk2_apply m c t _ _).trans (b1t_apply m c s j))
    (fun s j s' o => (iblk3_apply m c t _ _).trans (w2bd_apply m c s j s' o))
    (fun s o => (iblk4_apply m c t _ _).trans (b2t_apply m c s o)) s o

/-- An entry of the packed result is in point `t`'s block iff its row is one of the point's 4096 rows. -/
theorem mem_blk5 (t : Fin cfg0.N) (i : S131072x64.Idx) :
    i ∈ ((cfg0.win 5).blk t).view.set ↔ ∀ a : Fin 2, win0_5.index t a * S4096x64.size a ≤ (i a).val
      ∧ (i a).val < win0_5.index t a * S4096x64.size a + S4096x64.size a := by
  show i ∈ ((View.whole main_v15).slice (win0_5.rect t)).set ↔ _
  rw [View.set_slice_whole, Rect.mem_set_unit]
  exact Iff.rfl

/-- The 32 blocks tile the packed result: row `R` is in the block of point `R / 4096`. -/
theorem cover5 (i : S131072x64.Idx) :
    ∃ t : Fin cfg0.N, (cfg0.win 5).flush t = true ∧ i ∈ ((cfg0.win 5).blk t).view.set := by
  have hi0 : (i 0).val < 131072 := idx2_lt0 i
  have hi1 : (i 1).val < 64 := idx2_lt1 i
  have hN : cfg0.N = 32 := N_0
  obtain ⟨t, ht⟩ : ∃ t : Fin cfg0.N, t.val = (i 0).val / 4096 := ⟨⟨(i 0).val / 4096, by omega⟩, rfl⟩
  obtain ⟨-, -, -, -, -, -, -, -, -, -, e0, e1⟩ := idx_facts t
  refine ⟨t, flush0_5 t, ?_⟩
  rw [mem_blk5]
  intro a
  match a with
  | ⟨0, _⟩ =>
    show win0_5.index t (0 : Fin 2) * 4096 ≤ (i 0).val ∧ (i 0).val < win0_5.index t (0 : Fin 2) * 4096 + 4096
    rw [e0, ht]; omega
  | ⟨1, _⟩ =>
    show win0_5.index t (1 : Fin 2) * 64 ≤ (i 1).val ∧ (i 1).val < win0_5.index t (1 : Fin 2) * 64 + 64
    rw [e1]; omega

/-- THE PACKED RESULT after the run is `packed`. -/
theorem final5 (c : Dev nD) : (dats m 0 c).arrAt 5 cfg0.N = packed m c :=
  (dats m 0 c).arrAt_eq_of_cover 5 (packed m c) (fun t _ => flushed_eq m c t) cover5

/-! ## The final re-reading, and the run -/

/-- After the region the host re-reads the packed result as `[262144, 32]`. -/
theorem tail_eq (c : Dev nD) :
    (Pipeline.afterTail₀ cfgs (dats m) 0 (V0 m) [hostOps1] c main_v16 : S262144x32.Idx → EReal)
      = shapeCast S262144x32 (packed m c) shapeCasts_S131072x64_S262144x32 := by
  unfold Pipeline.afterTail₀
  show StableHlo.after hostOps1 _ (Proc.devRef .tc main_v16) = _
  after_results
  have hw : Pipeline.withArrays (cfgs 0).spec c (V0 m c) (fun w => (dats m 0 c).arrAt w (cfgs 0).N) (Proc.devRef .tc main_v15)
      = packed m c :=
    (Pipeline.withArrays_arr spec0 launch0.win.arr_inj c _ _ 5).trans (final5 m c)
  rw [hw]
  rfl

/-- Re-read with rows of 32, `packed` is `mlp`: entry `(i, o)` sits at row-major position `32 i + o`, which is column
    `32 (i % 2) + o` of packed row `i / 2`, and `2 (i / 2) + i % 2 = i`. -/
theorem unpacked_eq (c : Dev nD) :
    shapeCast S262144x32 (packed m c) shapeCasts_S131072x64_S262144x32
      = RowMlp.mlp (argX m c) (argW1 m c) (argB1 m c) (argW2 m c) (argB2 m c) := by
  funext y
  obtain ⟨i, o, rfl⟩ : ∃ (i : Fin 262144) (o : Fin 32), y = ix2 i o := ⟨y 0, y 1, eq_ix2 y⟩
  have hi := i.isLt
  have hR : i.val / 2 < 131072 := by omega
  have hs : i.val % 2 < 2 := Nat.mod_lt _ (by decide)
  have hrow : RowMlp.row ⟨i.val / 2, hR⟩ ⟨i.val % 2, hs⟩ = i :=
    Fin.ext (by show 2 * (i.val / 2) + i.val % 2 = i.val; omega)
  rw [shapeCast_apply (packed m c) shapeCasts_S131072x64_S262144x32 (ix2 i o)
    (ix2 (⟨i.val / 2, hR⟩ : Fin 131072) (join (n := 32) (N := 64) rfl ⟨i.val % 2, hs⟩ o)) (by
      show ((⟨2, ![131072, 64]⟩ : Shape).rowMajor _).val = ((⟨2, ![262144, 32]⟩ : Shape).rowMajor _).val
      rw [Shape.rowMajor_val_two, Shape.rowMajor_val_two]
      show i.val / 2 * 64 + (o.val + 32 * (i.val % 2)) = i.val * 32 + o.val
      omega), packed_join, hrow]

/-- THE KERNEL'S RUN, READ: every weakly fair execution terminates with the result array at `mlp` of the arguments, the
    arguments unchanged. -/
theorem run : θ_run defs (onTc (τ := τ) (main (F := Ideal))) ⟨m, fun _ => 0, ρ⟩ fun r => ∀ c : Dev nD,
      r.2.mem ((c.tc : Thread nD τ).loc main_v16) = RowMlp.mlp (argX m c) (argW1 m c) (argB1 m c) (argW2 m c) (argB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
    ⟨((h c).2 main_v16 (Pipeline.mem_restRefs_of main_v16 (by decide) (by decide))).trans ((tail_eq m c).trans (unpacked_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Rows

end
-- ==== Proof.lean ====
/-
  The claim: the packed two-rows-per-lane kernel and the plain per-row reference compute the same two-layer perceptron.

  For every row `i` and output `o` both programs end with
    `∑ j, max (∑ k, x (i, k) * W1 (k, j) + b1 j) 0 * W2 (j, o) + b2 o`
  as an extended real. The reference computes it as written (its result read one operation at a time). The kernel packs rows
  `2 r` and `2 r + 1` into one row of 128, multiplies by the block-diagonal matrices `[[W1, 0], [0, W1]]` and
  `[[W2, 0], [0, W2]]`, adds the biases written twice, and un-packs; a sum over a doubled index range against a column that
  is zero outside one half keeps that half only (`a * 0 = 0` for every extended real), so each half of a packed row is the
  perceptron of its own row. Finiteness of the inputs is not used: only regrouping of sums and that zero annihilates.
  The three programs' runs terminate without fault and leave their arguments unchanged; the kernel's idealization rewrote
  no operation, so there is nothing to preserve.
-/
import proofs.«431270_j77429670412802_3_alg».proof.Defs
import proofs.«431270_j77429670412802_3_alg».proof.Proof.Gen.Kernel
import proofs.«431270_j77429670412802_3_alg».proof.Proof.Gen.Kernel.Skeleton
import proofs.«431270_j77429670412802_3_alg».proof.Proof.Gen.Kernel.Launch
import proofs.«431270_j77429670412802_3_alg».proof.Proof.Gen.Kernel.Points
import proofs.«431270_j77429670412802_3_alg».proof.Proof.Gen.Kernel.Frame
import proofs.«431270_j77429670412802_3_alg».proof.Proof.Gen.KernelIdeal
import proofs.«431270_j77429670412802_3_alg».proof.Proof.Gen.KernelIdeal.Skeleton
import proofs.«431270_j77429670412802_3_alg».proof.Proof.Gen.KernelIdeal.Launch
import proofs.«431270_j77429670412802_3_alg».proof.Proof.Gen.KernelIdeal.Points
import proofs.«431270_j77429670412802_3_alg».proof.Proof.Gen.KernelIdeal.Frame
import proofs.«431270_j77429670412802_3_alg».proof.Proof.Gen.ReferenceIdeal
import proofs.«431270_j77429670412802_3_alg».proof.Proof.Gen.Pre_finite_inputs
import proofs.«431270_j77429670412802_3_alg».proof.Proof.Gen.ReferenceIdeal.Run
import proofs.«431270_j77429670412802_3_alg».proof.Proof.Gen.ReferenceIdeal.Read
import proofs.«431270_j77429670412802_3_alg».proof.Proof.RowMlp
import proofs.«431270_j77429670412802_3_alg».proof.Proof.RefRows
import proofs.«431270_j77429670412802_3_alg».proof.Proof.KernelRows
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the per-row perceptron of those arguments. -/
theorem algebraic : Cert.algebraic_KernelIdeal_ReferenceIdeal := by
  intro m ρ m' ρ' _ hagree
  refine ⟨fun c => RowMlp.mlp (Cert.KernelIdeal.HostArrays.argX m c) (Cert.KernelIdeal.HostArrays.argW1 m c)
    (Cert.KernelIdeal.HostArrays.argB1 m c) (Cert.KernelIdeal.HostArrays.argW2 m c) (Cert.KernelIdeal.HostArrays.argB2 m c),
    Cert.KernelIdeal.Rows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Rows.ref_eq_mlp,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
